-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S4x2048x2048 : Shape := ⟨3, ![4, 2048, 2048]⟩
abbrev S4x2048 : Shape := ⟨2, ![4, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4x2048x2048 : S_.BroadcastsInDim S4x2048x2048 (![] : Fin 0 → Fin S4x2048x2048.rank)
  reducesTo_S4x2048x2048_S_d0_1_2 : S4x2048x2048.ReducesTo [0, 1, 2] S_
  bcast_S_S4x2048 : S_.BroadcastsInDim S4x2048 (![] : Fin 0 → Fin S4x2048.rank)
  reducesTo_S4x2048_S_d0_1 : S4x2048.ReducesTo [0, 1] S_

variable [Facts]

def fn_part1 {F : FTy → Type} [FloatOps F] (main_arg4 : FVec F S4x2048x2048 .f32) (main_arg5 : FVec F S4x2048 .f32) (main_arg6 : FVec F S4x2048 .f32) (main_v13 : IVec S_ 1) (main_v16 : IVec S4x2048x2048 1) : IVec S_ 1 :=
  let main_c_5 : IVec S_ 1 := constantI S_ 1 1#1
  let main_v17 : IVec S_ 1 := (fun x v => Host.reduce IntOp.andi x v reducesTo_S4x2048x2048_S_d0_1_2 h_S_) main_v16 main_c_5
  let main_v18 : IVec S_ 1 := andi main_v13 main_v17
  let main_v19 : FVec F S4x2048x2048 .f32 := Host.absf main_arg4
  let main_cst_6 : FVec F S_ .f32 := constant S_ .f32 0x7F800000#32
  let main_v20 : FVec F S4x2048x2048 .f32 := broadcastInDim S4x2048x2048 ![] bcast_S_S4x2048x2048 main_cst_6
  let main_v21 : IVec S4x2048x2048 1 := cmpf .olt main_v19 main_v20
  let main_c_7 : IVec S_ 1 := constantI S_ 1 1#1
  let main_v22 : IVec S_ 1 := (fun x v => Host.reduce IntOp.andi x v reducesTo_S4x2048x2048_S_d0_1_2 h_S_) main_v21 main_c_7
  let main_v23 : IVec S_ 1 := andi main_v18 main_v22
  let main_v24 : FVec F S4x2048 .f32 := Host.absf main_arg5
  let main_cst_8 : FVec F S_ .f32 := constant S_ .f32 0x7F800000#32
  let main_v25 : FVec F S4x2048 .f32 := broadcastInDim S4x2048 ![] bcast_S_S4x2048 main_cst_8
  let main_v26 : IVec S4x2048 1 := cmpf .olt main_v24 main_v25
  let main_c_9 : IVec S_ 1 := constantI S_ 1 1#1
  let main_v27 : IVec S_ 1 := (fun x v => Host.reduce IntOp.andi x v reducesTo_S4x2048_S_d0_1 h_S_) main_v26 main_c_9
  let main_v28 : IVec S_ 1 := andi main_v23 main_v27
  let main_v29 : FVec F S4x2048 .f32 := Host.absf main_arg6
  let main_cst_10 : FVec F S_ .f32 := constant S_ .f32 0x7F800000#32
  let main_v30 : FVec F S4x2048 .f32 := broadcastInDim S4x2048 ![] bcast_S_S4x2048 main_cst_10
  let main_v31 : IVec S4x2048 1 := cmpf .olt main_v29 main_v30
  let main_c_11 : IVec S_ 1 := constantI S_ 1 1#1
  let main_v32 : IVec S_ 1 := (fun x v => Host.reduce IntOp.andi x v reducesTo_S4x2048_S_d0_1 h_S_) main_v31 main_c_11
  let main_v33 : IVec S_ 1 := andi main_v28 main_v32
  main_v33

def fn {F : FTy → Type} [FloatOps F] (main_arg0 : FVec F S8192x2048 .f32) (main_arg1 : FVec F S8192x2048 .f32) (main_arg2 : FVec F S8192x2048 .f32) (main_arg3 : FVec F S4x2048x2048 .f32) (main_arg4 : FVec F S4x2048x2048 .f32) (main_arg5 : FVec F S4x2048 .f32) (main_arg6 : FVec F S4x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S4x2048x2048 .f32 := Host.absf main_arg3
  let main_cst_4 : FVec F S_ .f32 := constant S_ .f32 0x7F800000#32
  let main_v15 : FVec F S4x2048x2048 .f32 := broadcastInDim S4x2048x2048 ![] bcast_S_S4x2048x2048 main_cst_4
  let main_v16 : IVec S4x2048x2048 1 := cmpf .olt main_v14 main_v15
  fn_part1 (F := F) main_arg4 main_arg5 main_arg6 main_v13 main_v16
-- ==== Kernel.lean ====
abbrev S8192x2048 : Shape := ⟨2, ![8192, 2048]⟩
abbrev S4x2048x2048 : Shape := ⟨3, ![4, 2048, 2048]⟩
abbrev S4x2048 : Shape := ⟨2, ![4, 2048]⟩
abbrev S512x2048 : Shape := ⟨2, ![512, 2048]⟩
abbrev S512x256 : Shape := ⟨2, ![512, 256]⟩
abbrev S4x256x2048 : Shape := ⟨3, ![4, 256, 2048]⟩
abbrev S4x256 : Shape := ⟨2, ![4, 256]⟩
abbrev S1x256x2048 : Shape := ⟨3, ![1, 256, 2048]⟩
abbrev S256x2048 : Shape := ⟨2, ![256, 2048]⟩
abbrev S1x256 : Shape := ⟨2, ![1, 256]⟩
abbrev S256 : Shape := ⟨1, ![256]⟩

abbrev nBuf : Space → Nat
  | .hbm => 13
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S4x2048x2048, .f32⟩
  | .hbm, ⟨4, _⟩ => ⟨S4x2048x2048, .f32⟩
  | .hbm, ⟨5, _⟩ => ⟨S4x2048, .f32⟩
  | .hbm, ⟨6, _⟩ => ⟨S4x2048, .f32⟩
  | .hbm, ⟨7, _⟩ => ⟨S8192x2048, .bf16⟩
  | .hbm, ⟨8, _⟩ => ⟨S8192x2048, .bf16⟩
  | .hbm, ⟨9, _⟩ => ⟨S4x2048x2048, .bf16⟩
  | .hbm, ⟨10, _⟩ => ⟨S4x2048x2048, .bf16⟩
  | .hbm, ⟨11, _⟩ => ⟨S8192x2048, .f32⟩
  | .hbm, ⟨12, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x256, .f32⟩
  | .local _ .vmem, ⟨5, _⟩ => ⟨S512x256, .f32⟩
  | .local _ .vmem, ⟨6, _⟩ => ⟨S4x256x2048, .bf16⟩
  | .local _ .vmem, ⟨7, _⟩ => ⟨S4x256x2048, .bf16⟩
  | .local _ .vmem, ⟨8, _⟩ => ⟨S4x256x2048, .bf16⟩
  | .local _ .vmem, ⟨9, _⟩ => ⟨S4x256x2048, .bf16⟩
  | .local _ .vmem, ⟨10, _⟩ => ⟨S4x256, .f32⟩
  | .local _ .vmem, ⟨11, _⟩ => ⟨S4x256, .f32⟩
  | .local _ .vmem, ⟨12, _⟩ => ⟨S4x256, .f32⟩
  | .local _ .vmem, ⟨13, _⟩ => ⟨S4x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x256_S512x256_0_0 : ∀ a, (![0, 0] : Fin 2 → Nat) a + S512x256.size a ≤ S512x256.size a
  h_S512x256 : 0 < S512x256.numel
  inb_S4x256x2048_S1x256x2048_0_0_0 : ∀ a, (![0, 0, 0] : Fin 3 → Nat) a + S1x256x2048.size a ≤ S4x256x2048.size a
  h_S1x256x2048 : 0 < S1x256x2048.numel
  shapeCasts_S1x256x2048_S256x2048 : S1x256x2048.ShapeCasts S256x2048
  inb_S4x256_S1x256_0_0 : ∀ a, (![0, 0] : Fin 2 → Nat) a + S1x256.size a ≤ S4x256.size a
  h_S1x256 : 0 < S1x256.numel
  shapeCasts_S1x256_S256 : S1x256.ShapeCasts S256
  shapeCasts_S256_S1x256 : S256.ShapeCasts S1x256
  broadcasts_S1x256_S512x256 : S1x256.Broadcasts S512x256
  inb_S4x256x2048_S1x256x2048_1_0_0 : ∀ a, (![1, 0, 0] : Fin 3 → Nat) a + S1x256x2048.size a ≤ S4x256x2048.size a
  inb_S4x256_S1x256_1_0 : ∀ a, (![1, 0] : Fin 2 → Nat) a + S1x256.size a ≤ S4x256.size a
  inb_S4x256x2048_S1x256x2048_2_0_0 : ∀ a, (![2, 0, 0] : Fin 3 → Nat) a + S1x256x2048.size a ≤ S4x256x2048.size a
  inb_S4x256_S1x256_2_0 : ∀ a, (![2, 0] : Fin 2 → Nat) a + S1x256.size a ≤ S4x256.size a
  inb_S4x256x2048_S1x256x2048_3_0_0 : ∀ a, (![3, 0, 0] : Fin 3 → Nat) a + S1x256x2048.size a ≤ S4x256x2048.size a
  inb_S4x256_S1x256_3_0 : ∀ a, (![3, 0] : Fin 2 → Nat) a + S1x256.size a ≤ S4x256.size a
  dot_S512x2048_S256x2048_S512x256_1_1_0_0_n_n_wf : DotDims.WF S512x2048 S256x2048 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .bf16 = 32 ∨ (Rect.block (s := S8192x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S8192x2048.size a
  hwx0_2 : ∀ i : grid0.Coords, EltTy.bits .f32 = 32 ∨ (Rect.block (s := S8192x2048) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256x2048.size a ≤ S4x2048x2048.size a
  hwx0_3 : ∀ i : grid0.Coords, EltTy.bits .bf16 = 32 ∨ (Rect.block (s := S4x2048x2048) S4x256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256x2048.size a ≤ S4x2048x2048.size a
  hwx0_4 : ∀ i : grid0.Coords, EltTy.bits .bf16 = 32 ∨ (Rect.block (s := S4x2048x2048) S4x256x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x256.size a ≤ S4x2048.size a
  hwx0_5 : ∀ i : grid0.Coords, EltTy.bits .f32 = 32 ∨ (Rect.block (s := S4x2048) S4x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x256.size a ≤ S4x2048.size a
  hwx0_6 : ∀ i : grid0.Coords, EltTy.bits .f32 = 32 ∨ (Rect.block (s := S4x2048) S4x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S8192x2048.size a
  hwx0_7 : ∀ i : grid0.Coords, EltTy.bits .f32 = 32 ∨ (Rect.block (s := S8192x2048) S512x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S8192x2048.size a
  hwx0_8 : ∀ i : grid0.Coords, EltTy.bits .f32 = 32 ∨ (Rect.block (s := S8192x2048) S512x256.size (cc0_transform_8 i) (hinb0_8 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4x256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S512x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S512x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S4x2048x2048 : Shape := ⟨3, ![4, 2048, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S4x1x2048 : Shape := ⟨3, ![4, 1, 2048]⟩
abbrev S1x8192x2048 : Shape := ⟨3, ![1, 8192, 2048]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S4x2048x2048, .f32⟩
  | .hbm, ⟨4, _⟩ => ⟨S4x2048x2048, .f32⟩
  | .hbm, ⟨5, _⟩ => ⟨S4x2048, .f32⟩
  | .hbm, ⟨6, _⟩ => ⟨S4x2048, .f32⟩
  | .hbm, ⟨7, _⟩ => ⟨S4x2048x8192, .f32⟩
  | .hbm, ⟨8, _⟩ => ⟨S4x8192x2048, .f32⟩
  | .hbm, ⟨9, _⟩ => ⟨S4x1x2048, .f32⟩
  | .hbm, ⟨10, _⟩ => ⟨S4x8192x2048, .f32⟩
  | .hbm, ⟨11, _⟩ => ⟨S4x8192x2048, .f32⟩
  | .hbm, ⟨12, _⟩ => ⟨S4x2048x8192, .f32⟩
  | .hbm, ⟨13, _⟩ => ⟨S4x8192x2048, .f32⟩
  | .hbm, ⟨14, _⟩ => ⟨S4x1x2048, .f32⟩
  | .hbm, ⟨15, _⟩ => ⟨S4x8192x2048, .f32⟩
  | .hbm, ⟨16, _⟩ => ⟨S4x8192x2048, .f32⟩
  | .hbm, ⟨17, _⟩ => ⟨S4x8192x2048, .f32⟩
  | .hbm, ⟨18, _⟩ => ⟨S1x8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S1x8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S1x8192x2048, .f32⟩
  | .hbm, ⟨39, _⟩ => ⟨S8192x2048, .f32⟩
  | .hbm, ⟨40, _⟩ => ⟨S8192x2048, .f32⟩
  | .hbm, ⟨41, _⟩ => ⟨S1x8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  transposes_S4x2048x8192_S4x8192x2048_0_2_1 : S4x2048x8192.Transposes [0, 2, 1] S4x8192x2048
  bcast_S4x2048_S4x1x2048_0_2 : S4x2048.BroadcastsInDim S4x1x2048 (![0, 2] : Fin 2 → Fin S4x1x2048.rank)
  bcast_S4x1x2048_S4x8192x2048_0_1_2 : S4x1x2048.BroadcastsInDim S4x8192x2048 (![0, 1, 2] : Fin 3 → Fin S4x8192x2048.rank)
  slices_S4x8192x2048_S1x8192x2048_0_0_0 : S4x8192x2048.Slices ![0, 0, 0] S1x8192x2048
  shapeCasts_S1x8192x2048_S8192x2048 : S1x8192x2048.ShapeCasts S8192x2048
  bcast_S_S8192x2048 : S_.BroadcastsInDim S8192x2048 (![] : Fin 0 → Fin S8192x2048.rank)
  slices_S4x8192x2048_S1x8192x2048_1_0_0 : S4x8192x2048.Slices ![1, 0, 0] S1x8192x2048
  slices_S4x8192x2048_S1x8192x2048_2_0_0 : S4x8192x2048.Slices ![2, 0, 0] S1x8192x2048
  slices_S4x8192x2048_S1x8192x2048_3_0_0 : S4x8192x2048.Slices ![3, 0, 0] S1x8192x2048
  dot_S4x2048x2048_S8192x2048_S4x2048x8192_2_1_01_0_n_n_wf : DotDims.WF S4x2048x2048 S8192x2048 S4x2048x8192 [2] [1] [0, 1] [0] [] []

variable [Facts₀]

def dot_S4x2048x2048_S8192x2048_S4x2048x8192_2_1_01_0_n_n : DotDims S4x2048x2048 S8192x2048 S4x2048x8192 where
  lhsContracting := [2]
  rhsContracting := [1]
  lhsNonContracting := [0, 1]
  rhsNonContracting := [0]
  lhsBatch := []
  rhsBatch := []
  wf := dot_S4x2048x2048_S8192x2048_S4x2048x8192_2_1_01_0_n_n_wf

class Facts : Prop extends Facts₀ where

variable [Facts]
-- ==== Proof.LstmSpec.lean ====
/-
  The LSTM cell over the extended reals, as ONE function of the seven argument arrays, index by index.

  For a batch row `b` and a hidden column `h` the pre-activation of gate `g` (forget, input, cell, output) is
      pre g b h = Σ_k x[b,k]·W_x[g,h,k] + Σ_k h_prev[b,k]·W_h[g,h,k] + b_x[g,h] + b_h[g,h],
  the next cell state is  c' = σ(pre 0)·c_prev + σ(pre 1)·tanh(pre 2)  and the next hidden state is
  h' = σ(pre 3)·tanh(c'), with σ the logistic function 1 / (1 + e^(-z)) on the extended reals.

  Two programs that sum the four terms of `pre` in different groupings, or multiply the factors of each product
  in the other order, compute the same extended real: addition and multiplication on the extended reals are
  commutative and associative at the infinities too (`pre_regroup`). No distributive law is used, so no
  finiteness of the inputs is needed.
-/
import Idealize.ShloMosaic.Lib.ValueIdx
import Idealize.ShloMosaic.PureOps.Ideal.Laws

noncomputable section

open scoped BigOperators
open Idealize.ShloMosaic Idealize.ShloMosaic.ValueIdx

namespace Cert.Lstm

/-- The shape of the batch-by-feature arrays `x`, `c_prev`, `h_prev` and of both results. -/
abbrev SAct : Shape := ⟨2, ![8192, 2048]⟩
/-- The shape of the stacked gate weights `W_x`, `W_h`: gate, output column, input column. -/
abbrev SWgt : Shape := ⟨3, ![4, 2048, 2048]⟩
/-- The shape of the stacked gate biases `b_x`, `b_h`: gate, output column. -/
abbrev SBia : Shape := ⟨2, ![4, 2048]⟩

variable (x c hp : SAct.Idx → EReal) (Wx Wh : SWgt.Idx → EReal) (bx bh : SBia.Idx → EReal)

/-- The pre-activation of gate `g` at batch row `b` and hidden column `h`: the two matrix products' entries, then the
    two biases, added left to right. -/
def pre (g : Fin 4) (b : Fin 8192) (h : Fin 2048) : EReal :=
  (∑ k : Fin 2048, x (ix2 b k) * Wx (ix3 g h k)) + (∑ k : Fin 2048, hp (ix2 b k) * Wh (ix3 g h k))
    + bx (ix2 g h) + bh (ix2 g h)

/-- The next cell state at `(b, h)`. -/
def cellAt (b : Fin 8192) (h : Fin 2048) : EReal :=
  Ideal.logistic (pre x hp Wx Wh bx bh 0 b h) * c (ix2 b h)
    + Ideal.logistic (pre x hp Wx Wh bx bh 1 b h) * Ideal.tanh (pre x hp Wx Wh bx bh 2 b h)

/-- The next hidden state at `(b, h)`. -/
def hiddenAt (b : Fin 8192) (h : Fin 2048) : EReal :=
  Ideal.logistic (pre x hp Wx Wh bx bh 3 b h) * Ideal.tanh (cellAt x c hp Wx Wh bx bh b h)

/-- The next cell state as an array. -/
def cellNext : SAct.Idx → EReal := fun i => cellAt x c hp Wx Wh bx bh (i 0) (i 1)

/-- The next hidden state as an array. -/
def hiddenNext : SAct.Idx → EReal := fun i => hiddenAt x c hp Wx Wh bx bh (i 0) (i 1)

/-- The same pre-activation with each product's factors in the other order and each bias added to its own matrix
    product first: commutativity and associativity of `+` and `·` on the extended reals. -/
theorem pre_regroup (g : Fin 4) (b : Fin 8192) (h : Fin 2048) :
    ((∑ k : Fin 2048, Wx (ix3 g h k) * x (ix2 b k)) + bx (ix2 g h))
        + ((∑ k : Fin 2048, Wh (ix3 g h k) * hp (ix2 b k)) + bh (ix2 g h))
      = pre x hp Wx Wh bx bh g b h := by
  unfold pre
  rw [Finset.sum_congr rfl fun k _ => mul_comm (Wx (ix3 g h k)) (x (ix2 b k)),
    Finset.sum_congr rfl fun k _ => mul_comm (Wh (ix3 g h k)) (hp (ix2 b k))]
  abel

/-- The word `0x3F800000` is the real number one. -/
theorem one_f32 : Ideal.ofBits .f32 0x3F800000#32 = 1 := by
  simp [Ideal.ofBits, Ideal.ieee, -EReal.coe_mul]; norm_num

/-- The logistic function spelt out with a negation, an exponential, an addition to one and a quotient of one is the
    logistic function: it is its definition, once the two literals are read as one. -/
theorem logistic_spelt (z : EReal) :
    Ideal.div (Ideal.ofBits .f32 0x3F800000#32) (Ideal.ofBits .f32 0x3F800000#32 + Ideal.exp (-z)) = Ideal.logistic z := by
  rw [one_f32]; rfl

end Cert.Lstm

end
-- ==== Proof.GateBlock.lean ====
/-
  One grid point of the kernel, read at an index of its output block.

  At a grid point the body holds a 512-row block of `x` and of `h_prev` (all 2048 columns), the matching 512×256
  block of `c_prev`, and for each of the four gates the 256 weight rows and 256 bias entries of the block's hidden
  columns. Gate `g`'s pre-activation at block entry `(p, q)` is
      Σ_k X[p,k]·WX[g,q,k] + Σ_k H[p,k]·WH[g,q,k] + BX[g,q] + BH[g,q]
  (`gateBlk`): each `tpu.matmul` into a zero accumulator is that sum over the contracted axis, the weight slab
  `[1,256,2048]` viewed `[256,2048]`, and each bias row `[1,256]` viewed `[256]`, back `[1,256]`, and repeated down
  the 512 rows. The two stored blocks are then the cell update and the hidden update of those four numbers.
-/
import proofs.«180606_j21354577396155_1_alg».proof.Proof.Gen.KernelIdeal.Frame
import proofs.«180606_j21354577396155_1_alg».proof.Proof.LstmSpec
import Idealize.ShloMosaic.Lib.ValueIdx
import Idealize.ShloMosaic.Lib.Pipeline.Value
import Idealize.ShloMosaic.PureOps.Ideal.Laws

noncomputable section

open scoped BigOperators
open Idealize.ShloMosaic Idealize.ShloMosaic.TcCoe Idealize.ShloMosaic.ValueIdx

namespace Cert.KernelIdeal.Hand

open Cert.KernelIdeal Cert.KernelIdeal.Gen

/-! ## The matrix product at an entry -/

theorem lhs_row (i : S512x256.Idx) (q : dot_S512x2048_S256x2048_S512x256_1_1_0_0_n_n.contr.Idx) :
    (dot_S512x2048_S256x2048_S512x256_1_1_0_0_n_n.lhsIdx i q 0).val = (i 0).val := by
  unfold DotDims.lhsIdx
  rw [dif_neg (show ¬(0 : Fin S512x2048.rank) ∈ dot_S512x2048_S256x2048_S512x256_1_1_0_0_n_n.lhsBatch by decide), dif_pos (show (0 : Fin S512x2048.rank) ∈ dot_S512x2048_S256x2048_S512x256_1_1_0_0_n_n.lhsNonContracting by decide)]
  rfl
theorem lhs_col (i : S512x256.Idx) (q : dot_S512x2048_S256x2048_S512x256_1_1_0_0_n_n.contr.Idx) :
    (dot_S512x2048_S256x2048_S512x256_1_1_0_0_n_n.lhsIdx i q 1).val = (q ⟨0, by decide⟩).val :=
  dot_S512x2048_S256x2048_S512x256_1_1_0_0_n_n.lhsIdx_val_of_single rfl i q
theorem rhs_row (i : S512x256.Idx) (q : dot_S512x2048_S256x2048_S512x256_1_1_0_0_n_n.contr.Idx) :
    (dot_S512x2048_S256x2048_S512x256_1_1_0_0_n_n.rhsIdx i q 0).val = (i 1).val := by
  unfold DotDims.rhsIdx
  rw [dif_neg (show ¬(0 : Fin S256x2048.rank) ∈ dot_S512x2048_S256x2048_S512x256_1_1_0_0_n_n.rhsBatch by decide), dif_pos (show (0 : Fin S256x2048.rank) ∈ dot_S512x2048_S256x2048_S512x256_1_1_0_0_n_n.rhsNonContracting by decide)]
  rfl
theorem rhs_col (i : S512x256.Idx) (q : dot_S512x2048_S256x2048_S512x256_1_1_0_0_n_n.contr.Idx) :
    (dot_S512x2048_S256x2048_S512x256_1_1_0_0_n_n.rhsIdx i q 1).val = (q ⟨0, by decide⟩).val :=
  dot_S512x2048_S256x2048_S512x256_1_1_0_0_n_n.rhsIdx_val_of_single rfl i q

/-- `X · Wᵀ` into a zero accumulator, at entry `(p, q)`: the sum over the shared axis of row `p` of `X` against row `q` of `W`. -/
theorem matmul_entry (X : FVec Ideal S512x2048 .bf16) (W : FVec Ideal S256x2048 .bf16) (p : Fin 512) (q : Fin 256) :
    matmul dot_S512x2048_S256x2048_S512x256_1_1_0_0_n_n none X W (constant S512x256 .f32 0x00000000#32) (ix2 p q)
      = ∑ k : Fin 2048, X (ix2 p k) * W (ix2 q k) := by
  simp only [matmul]
  rw [Ideal.matmul_constant_zero_apply, ← Equiv.sum_comp (ValueIdx.contrEquiv1 dot_S512x2048_S256x2048_S512x256_1_1_0_0_n_n 2048 rfl rfl).symm]
  refine Finset.sum_congr rfl fun k _ => ?_
  have hk := ValueIdx.contrEquiv1_symm_val dot_S512x2048_S256x2048_S512x256_1_1_0_0_n_n 2048 rfl rfl k
  have el : dot_S512x2048_S256x2048_S512x256_1_1_0_0_n_n.lhsIdx (ix2 p q) ((ValueIdx.contrEquiv1 dot_S512x2048_S256x2048_S512x256_1_1_0_0_n_n 2048 rfl rfl).symm k) = ix2 p k := funext fun a => Fin.ext (by
    match a with
    | ⟨0, _⟩ => exact lhs_row _ _
    | ⟨1, _⟩ => exact (lhs_col _ _).trans hk)
  have er : dot_S512x2048_S256x2048_S512x256_1_1_0_0_n_n.rhsIdx (ix2 p q) ((ValueIdx.contrEquiv1 dot_S512x2048_S256x2048_S512x256_1_1_0_0_n_n 2048 rfl rfl).symm k) = ix2 q k := funext fun a => Fin.ext (by
    match a with
    | ⟨0, _⟩ => exact rhs_row _ _
    | ⟨1, _⟩ => exact (rhs_col _ _).trans hk)
  rw [el, er]

/-- A `[1,256,2048]` weight slab viewed `[256,2048]`, at `(q, k)`, is the slab at `(0, q, k)`. -/
theorem slab_entry (W : Vec Ideal S1x256x2048 .bf16) (q : Fin 256) (k : Fin 2048) :
    shapeCast S256x2048 W shapeCasts_S1x256x2048_S256x2048 (ix2 q k) = W (ix3 (0 : Fin 1) q k) :=
  shapeCast_apply W shapeCasts_S1x256x2048_S256x2048 (ix2 q k) (ix3 (0 : Fin 1) q k)
    (by rw [Shape.rowMajor_val_three, Shape.rowMajor_val_two]; show (0 * 256 + q.val) * 2048 + k.val = q.val * 2048 + k.val; omega)

/-- A `[1,256]` bias row viewed `[256]`, back `[1,256]`, and repeated down the rows, at `(p, q)`, is the row at `(0, q)`. -/
theorem bias_entry (B : Vec Ideal S1x256 .f32) (p : Fin 512) (q : Fin 256) :
    broadcastTo S512x256 (shapeCast S1x256 (shapeCast S256 B shapeCasts_S1x256_S256) shapeCasts_S256_S1x256) broadcasts_S1x256_S512x256 (ix2 p q)
      = B (ix2 (0 : Fin 1) q) := by
  rw [shapeCast_shapeCast]
  exact broadcastTo_apply B broadcasts_S1x256_S512x256 (ix2 p q) (ix2 (0 : Fin 1) q) (fun a => match a with
    | ⟨0, _⟩ => by show 0 = (if (1 : Nat) = 1 then 0 else p.val); rw [if_pos rfl]
    | ⟨1, _⟩ => by show q.val = (if (256 : Nat) = 1 then 0 else q.val); rw [if_neg (by decide)])

/-! ## One gate's pre-activation over a block -/

/-- What the body computes for one gate from the two activation blocks, one weight slab and one bias row of each kind:
    the two products, added, then the two bias rows added in turn. -/
def gateVec (X H : Vec Ideal S512x2048 .bf16) (WX WH : Vec Ideal S1x256x2048 .bf16) (BX BH : Vec Ideal S1x256 .f32) :
    FVec Ideal S512x256 .f32 :=
  addf (φ := .f32) (addf (φ := .f32) (addf (φ := .f32)
      (matmul (φ₁ := .bf16) (φ₂ := .bf16) dot_S512x2048_S256x2048_S512x256_1_1_0_0_n_n none
        (shapeCast S512x2048 X shapeCasts_S512x2048_S512x2048)
        (shapeCast S256x2048 WX shapeCasts_S1x256x2048_S256x2048) (constant S512x256 .f32 0x00000000#32))
      (matmul (φ₁ := .bf16) (φ₂ := .bf16) dot_S512x2048_S256x2048_S512x256_1_1_0_0_n_n none
        (shapeCast S512x2048 H shapeCasts_S512x2048_S512x2048)
        (shapeCast S256x2048 WH shapeCasts_S1x256x2048_S256x2048) (constant S512x256 .f32 0x00000000#32)))
      (broadcastTo S512x256 (shapeCast S1x256 (shapeCast S256 BX shapeCasts_S1x256_S256) shapeCasts_S256_S1x256) broadcasts_S1x256_S512x256))
    (broadcastTo S512x256 (shapeCast S1x256 (shapeCast S256 BH shapeCasts_S1x256_S256) shapeCasts_S256_S1x256) broadcasts_S1x256_S512x256)

/-- At block entry `(p, q)` it is the four-term sum over the slab's and the row's entries `(0, q, ·)`, `(0, q)`. -/
theorem gateVec_entry (X H : Vec Ideal S512x2048 .bf16) (WX WH : Vec Ideal S1x256x2048 .bf16) (BX BH : Vec Ideal S1x256 .f32)
    (p : Fin 512) (q : Fin 256) :
    gateVec X H WX WH BX BH (ix2 p q)
      = (∑ k : Fin 2048, X (ix2 p k) * WX (ix3 (0 : Fin 1) q k)) + (∑ k : Fin 2048, H (ix2 p k) * WH (ix3 (0 : Fin 1) q k))
          + BX (ix2 (0 : Fin 1) q) + BH (ix2 (0 : Fin 1) q) := by
  unfold gateVec
  rw [addf_apply, addf_apply, addf_apply, matmul_entry, matmul_entry, bias_entry, bias_entry, shapeCast_self, shapeCast_self]
  exact congrArg₂ (· + ·) (congrArg₂ (· + ·) (congrArg₂ (· + ·)
    (Finset.sum_congr rfl fun k _ => congrArg (X (ix2 p k) * ·) (slab_entry WX q k))
    (Finset.sum_congr rfl fun k _ => congrArg (H (ix2 p k) * ·) (slab_entry WH q k))) rfl) rfl

/-- Gate `g`'s pre-activation at block entry `(p, q)`, from the whole staged blocks. -/
def gateBlk (X H : Vec Ideal S512x2048 .bf16) (WX WH : Vec Ideal S4x256x2048 .bf16) (BX BH : Vec Ideal S4x256 .f32)
    (g : Fin 4) (p : Fin 512) (q : Fin 256) : EReal :=
  (∑ k : Fin 2048, X (ix2 p k) * WX (ix3 g q k)) + (∑ k : Fin 2048, H (ix2 p k) * WH (ix3 g q k))
    + BX (ix2 g q) + BH (ix2 g q)

theorem hz2 : (![0, 0] : Fin 2 → Nat) = fun _ => 0 := funext fun a => by fin_cases a <;> rfl

/-! The body's loads of gate `g`'s weight slab and bias row read the staged block at `(g, q, k)` and `(g, q)`. -/

theorem ld_slab0 (W : Vec Ideal S4x256x2048 .bf16) (q : Fin 256) (k : Fin 2048) :
    View.ld W r0_2 (ix3 (0 : Fin 1) q k) = W (ix3 (0 : Fin 4) q k) :=
  congrArg W (funext fun a => Fin.ext (by
    match a with
    | ⟨0, _⟩ => rfl
    | ⟨1, _⟩ => show 0 + 1 * q.val = q.val; omega
    | ⟨2, _⟩ => show 0 + 1 * k.val = k.val; omega))
theorem ld_slab1 (W : Vec Ideal S4x256x2048 .bf16) (q : Fin 256) (k : Fin 2048) :
    View.ld W r0_4 (ix3 (0 : Fin 1) q k) = W (ix3 (1 : Fin 4) q k) :=
  congrArg W (funext fun a => Fin.ext (by
    match a with
    | ⟨0, _⟩ => rfl
    | ⟨1, _⟩ => show 0 + 1 * q.val = q.val; omega
    | ⟨2, _⟩ => show 0 + 1 * k.val = k.val; omega))
theorem ld_slab2 (W : Vec Ideal S4x256x2048 .bf16) (q : Fin 256) (k : Fin 2048) :
    View.ld W r0_6 (ix3 (0 : Fin 1) q k) = W (ix3 (2 : Fin 4) q k) :=
  congrArg W (funext fun a => Fin.ext (by
    match a with
    | ⟨0, _⟩ => rfl
    | ⟨1, _⟩ => show 0 + 1 * q.val = q.val; omega
    | ⟨2, _⟩ => show 0 + 1 * k.val = k.val; omega))
theorem ld_slab3 (W : Vec Ideal S4x256x2048 .bf16) (q : Fin 256) (k : Fin 2048) :
    View.ld W r0_8 (ix3 (0 : Fin 1) q k) = W (ix3 (3 : Fin 4) q k) :=
  congrArg W (funext fun a => Fin.ext (by
    match a with
    | ⟨0, _⟩ => rfl
    | ⟨1, _⟩ => show 0 + 1 * q.val = q.val; omega
    | ⟨2, _⟩ => show 0 + 1 * k.val = k.val; omega))
theorem ld_bias0 (B : Vec Ideal S4x256 .f32) (q : Fin 256) : View.ld B r0_3 (ix2 (0 : Fin 1) q) = B (ix2 (0 : Fin 4) q) :=
  congrArg B (funext fun a => Fin.ext (by
    match a with
    | ⟨0, _⟩ => rfl
    | ⟨1, _⟩ => show 0 + 1 * q.val = q.val; omega))
theorem ld_bias1 (B : Vec Ideal S4x256 .f32) (q : Fin 256) : View.ld B r0_5 (ix2 (0 : Fin 1) q) = B (ix2 (1 : Fin 4) q) :=
  congrArg B (funext fun a => Fin.ext (by
    match a with
    | ⟨0, _⟩ => rfl
    | ⟨1, _⟩ => show 0 + 1 * q.val = q.val; omega))
theorem ld_bias2 (B : Vec Ideal S4x256 .f32) (q : Fin 256) : View.ld B r0_7 (ix2 (0 : Fin 1) q) = B (ix2 (2 : Fin 4) q) :=
  congrArg B (funext fun a => Fin.ext (by
    match a with
    | ⟨0, _⟩ => rfl
    | ⟨1, _⟩ => show 0 + 1 * q.val = q.val; omega))
theorem ld_bias3 (B : Vec Ideal S4x256 .f32) (q : Fin 256) : View.ld B r0_9 (ix2 (0 : Fin 1) q) = B (ix2 (3 : Fin 4) q) :=
  congrArg B (funext fun a => Fin.ext (by
    match a with
    | ⟨0, _⟩ => rfl
    | ⟨1, _⟩ => show 0 + 1 * q.val = q.val; omega))

variable (X H : Vec Ideal S512x2048 .bf16) (C : Vec Ideal S512x256 .f32) (WX WH : Vec Ideal S4x256x2048 .bf16)
  (BX BH : Vec Ideal S4x256 .f32)

theorem gate0_entry (p : Fin 512) (q : Fin 256) :
    gateVec (View.ld X r0_0) (View.ld H r0_0) (View.ld WX r0_2) (View.ld WH r0_2) (View.ld BX r0_3) (View.ld BH r0_3) (ix2 p q)
      = gateBlk X H WX WH BX BH 0 p q := by
  rw [gateVec_entry]
  unfold gateBlk
  exact congrArg₂ (· + ·) (congrArg₂ (· + ·) (congrArg₂ (· + ·)
    (Finset.sum_congr rfl fun k _ => congrArg₂ (· * ·)
      (congrFun (View.ld_unit_zero (S := S512x2048) hz2 _ X) (ix2 p k)) (ld_slab0 WX q k))
    (Finset.sum_congr rfl fun k _ => congrArg₂ (· * ·)
      (congrFun (View.ld_unit_zero (S := S512x2048) hz2 _ H) (ix2 p k)) (ld_slab0 WH q k)))
    (ld_bias0 BX q)) (ld_bias0 BH q)
theorem gate1_entry (p : Fin 512) (q : Fin 256) :
    gateVec (View.ld X r0_0) (View.ld H r0_0) (View.ld WX r0_4) (View.ld WH r0_4) (View.ld BX r0_5) (View.ld BH r0_5) (ix2 p q)
      = gateBlk X H WX WH BX BH 1 p q := by
  rw [gateVec_entry]
  unfold gateBlk
  exact congrArg₂ (· + ·) (congrArg₂ (· + ·) (congrArg₂ (· + ·)
    (Finset.sum_congr rfl fun k _ => congrArg₂ (· * ·)
      (congrFun (View.ld_unit_zero (S := S512x2048) hz2 _ X) (ix2 p k)) (ld_slab1 WX q k))
    (Finset.sum_congr rfl fun k _ => congrArg₂ (· * ·)
      (congrFun (View.ld_unit_zero (S := S512x2048) hz2 _ H) (ix2 p k)) (ld_slab1 WH q k)))
    (ld_bias1 BX q)) (ld_bias1 BH q)
theorem gate2_entry (p : Fin 512) (q : Fin 256) :
    gateVec (View.ld X r0_0) (View.ld H r0_0) (View.ld WX r0_6) (View.ld WH r0_6) (View.ld BX r0_7) (View.ld BH r0_7) (ix2 p q)
      = gateBlk X H WX WH BX BH 2 p q := by
  rw [gateVec_entry]
  unfold gateBlk
  exact congrArg₂ (· + ·) (congrArg₂ (· + ·) (congrArg₂ (· + ·)
    (Finset.sum_congr rfl fun k _ => congrArg₂ (· * ·)
      (congrFun (View.ld_unit_zero (S := S512x2048) hz2 _ X) (ix2 p k)) (ld_slab2 WX q k))
    (Finset.sum_congr rfl fun k _ => congrArg₂ (· * ·)
      (congrFun (View.ld_unit_zero (S := S512x2048) hz2 _ H) (ix2 p k)) (ld_slab2 WH q k)))
    (ld_bias2 BX q)) (ld_bias2 BH q)
theorem gate3_entry (p : Fin 512) (q : Fin 256) :
    gateVec (View.ld X r0_0) (View.ld H r0_0) (View.ld WX r0_8) (View.ld WH r0_8) (View.ld BX r0_9) (View.ld BH r0_9) (ix2 p q)
      = gateBlk X H WX WH BX BH 3 p q := by
  rw [gateVec_entry]
  unfold gateBlk
  exact congrArg₂ (· + ·) (congrArg₂ (· + ·) (congrArg₂ (· + ·)
    (Finset.sum_congr rfl fun k _ => congrArg₂ (· * ·)
      (congrFun (View.ld_unit_zero (S := S512x2048) hz2 _ X) (ix2 p k)) (ld_slab3 WX q k))
    (Finset.sum_congr rfl fun k _ => congrArg₂ (· * ·)
      (congrFun (View.ld_unit_zero (S := S512x2048) hz2 _ H) (ix2 p k)) (ld_slab3 WH q k)))
    (ld_bias3 BX q)) (ld_bias3 BH q)

/-! ## The two stored blocks -/

/-- The cell block the body stores, at entry `(p, q)`. -/
theorem cellBlk_entry (p : Fin 512) (q : Fin 256) :
    out0_7 X H C WX WH BX BH (ix2 p q)
      = Ideal.logistic (gateBlk X H WX WH BX BH 0 p q) * C (ix2 p q)
          + Ideal.logistic (gateBlk X H WX WH BX BH 1 p q) * Ideal.tanh (gateBlk X H WX WH BX BH 2 p q) := by
  unfold out0_7
  rw [View.canon_unit_zero hz2]
  show Ideal.logistic (gateVec (View.ld X r0_0) (View.ld H r0_0) (View.ld WX r0_2) (View.ld WH r0_2) (View.ld BX r0_3) (View.ld BH r0_3) (ix2 p q))
        * View.ld C r0_1 (ix2 p q)
      + Ideal.logistic (gateVec (View.ld X r0_0) (View.ld H r0_0) (View.ld WX r0_4) (View.ld WH r0_4) (View.ld BX r0_5) (View.ld BH r0_5) (ix2 p q))
        * Ideal.tanh (gateVec (View.ld X r0_0) (View.ld H r0_0) (View.ld WX r0_6) (View.ld WH r0_6) (View.ld BX r0_7) (View.ld BH r0_7) (ix2 p q)) = _
  rw [gate0_entry, gate1_entry, gate2_entry, View.ld_unit_zero (S := S512x256) hz2]

/-- The hidden block the body stores, at entry `(p, q)`: the output gate times `tanh` of the cell block's entry. -/
theorem hiddenBlk_entry (p : Fin 512) (q : Fin 256) :
    out0_8 X H C WX WH BX BH (ix2 p q)
      = Ideal.logistic (gateBlk X H WX WH BX BH 3 p q) * Ideal.tanh (out0_7 X H C WX WH BX BH (ix2 p q)) := by
  rw [cellBlk_entry]
  unfold out0_8
  rw [View.canon_unit_zero hz2]
  show Ideal.logistic (gateVec (View.ld X r0_0) (View.ld H r0_0) (View.ld WX r0_8) (View.ld WH r0_8) (View.ld BX r0_9) (View.ld BH r0_9) (ix2 p q))
      * Ideal.tanh (Ideal.logistic (gateVec (View.ld X r0_0) (View.ld H r0_0) (View.ld WX r0_2) (View.ld WH r0_2) (View.ld BX r0_3) (View.ld BH r0_3) (ix2 p q))
        * View.ld C r0_1 (ix2 p q)
      + Ideal.logistic (gateVec (View.ld X r0_0) (View.ld H r0_0) (View.ld WX r0_4) (View.ld WH r0_4) (View.ld BX r0_5) (View.ld BH r0_5) (ix2 p q))
        * Ideal.tanh (gateVec (View.ld X r0_0) (View.ld H r0_0) (View.ld WX r0_6) (View.ld WH r0_6) (View.ld BX r0_7) (View.ld BH r0_7) (ix2 p q))) = _
  rw [gate0_entry, gate1_entry, gate2_entry, gate3_entry, View.ld_unit_zero (S := S512x256) hz2]

end Cert.KernelIdeal.Hand

end
-- ==== Proof.KernelIsSpec.lean ====
/-
  The kernel's two result arrays, after the run, are the LSTM cell of `LstmSpec`.

  The grid is 16 row blocks by 8 column blocks. At point `t` the output windows sit at block `(I, J)` of the two
  `[8192, 2048]` results; the windows of `x` and `h_prev` (converted to bf16 by the host, which at the extended reals
  changes nothing) sit at row block `I`, all columns; the window of `c_prev` at block `(I, J)`; the weight windows at
  column block `J` of the middle axis, all four gates; the bias windows at column block `J`. So entry `(p, q)` of a
  staged block is entry `(512·I + p, ·)`, `(·, 256·J + q, ·)` or `(·, 256·J + q)` of its array, and the block the body
  stores (`GateBlock`) is block `(I, J)` of the cell array and of the hidden array. The 128 blocks tile both results,
  entry `(r, s)` lying in block `(r / 512, s / 256)`, so after the run each result holds its whole array.
-/
import proofs.«180606_j21354577396155_1_alg».proof.Proof.Gen.KernelIdeal.Value
import proofs.«180606_j21354577396155_1_alg».proof.Proof.GateBlock
import Idealize.ShloMosaic.Lib.StableHlo.Run

noncomputable section

open scoped BigOperators
open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen Cert.KernelIdeal.Value Cert.Lstm

variable (m : (ℓ : Loc nD τ sig) → Buf (Elt Ideal) ℓ) (ρ : Dev nD → PrngReg)

/-! ## The arguments, and what the region finds -/

abbrev argX (c : Dev nD) : SAct.Idx → EReal := m ((c.tc : Thread nD τ).loc main_arg0)
abbrev argC (c : Dev nD) : SAct.Idx → EReal := m ((c.tc : Thread nD τ).loc main_arg1)
abbrev argH (c : Dev nD) : SAct.Idx → EReal := m ((c.tc : Thread nD τ).loc main_arg2)
abbrev argWx (c : Dev nD) : SWgt.Idx → EReal := m ((c.tc : Thread nD τ).loc main_arg3)
abbrev argWh (c : Dev nD) : SWgt.Idx → EReal := m ((c.tc : Thread nD τ).loc main_arg4)
abbrev argBx (c : Dev nD) : SBia.Idx → EReal := m ((c.tc : Thread nD τ).loc main_arg5)
abbrev argBh (c : Dev nD) : SBia.Idx → EReal := m ((c.tc : Thread nD τ).loc main_arg6)

/-- The next cell state of the arguments, as the first result's contents. -/
abbrev cellArr (c : Dev nD) : Buf (Elt Ideal) ((c.tc : Thread nD τ).loc main_v4_0) :=
  cellNext (argX m c) (argC m c) (argH m c) (argWx m c) (argWh m c) (argBx m c) (argBh m c)
/-- The next hidden state of the arguments, as the second result's contents. -/
abbrev hiddenArr (c : Dev nD) : Buf (Elt Ideal) ((c.tc : Thread nD τ).loc main_v4_1) :=
  hiddenNext (argX m c) (argC m c) (argH m c) (argWx m c) (argWh m c) (argBx m c) (argBh m c)

/-- The host's conversion of `x` to bf16 is the identity on extended reals. -/
theorem V_x (c : Dev nD) : (V m c main_v0 : S8192x2048.Idx → EReal) = argX m c := by
  dsimp only [Gen.V, Gen.hostOps0]; after_results; rfl
/-- Likewise of `h_prev`. -/
theorem V_h (c : Dev nD) : (V m c main_v1 : S8192x2048.Idx → EReal) = argH m c := by
  dsimp only [Gen.V, Gen.hostOps0]; after_results; rfl
/-- Likewise of `W_x`. -/
theorem V_wx (c : Dev nD) : (V m c main_v2 : S4x2048x2048.Idx → EReal) = argWx m c := by
  dsimp only [Gen.V, Gen.hostOps0]; after_results; rfl
/-- Likewise of `W_h`. -/
theorem V_wh (c : Dev nD) : (V m c main_v3 : S4x2048x2048.Idx → EReal) = argWh m c := by
  dsimp only [Gen.V, Gen.hostOps0]; after_results; rfl

/-! ## Where the windows sit at a point -/

/-- The printed index maps, decided over the 128 points: every input window's block index in terms of the first
    output window's `(I, J)`, and the second output window's the same. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = win0_7.index t (1 : Fin 2)
    ∧ win0_3.index t (0 : Fin 3) = 0 ∧ win0_3.index t (1 : Fin 3) = win0_7.index t (1 : Fin 2) ∧ win0_3.index t (2 : Fin 3) = 0
    ∧ win0_4.index t (0 : Fin 3) = 0 ∧ win0_4.index t (1 : Fin 3) = win0_7.index t (1 : Fin 2) ∧ win0_4.index t (2 : Fin 3) = 0
    ∧ win0_5.index t (0 : Fin 2) = 0 ∧ win0_5.index t (1 : Fin 2) = win0_7.index t (1 : Fin 2)
    ∧ win0_6.index t (0 : Fin 2) = 0 ∧ win0_6.index t (1 : Fin 2) = win0_7.index t (1 : Fin 2)
    ∧ win0_8.index t (0 : Fin 2) = win0_7.index t (0 : Fin 2) ∧ win0_8.index t (1 : Fin 2) = win0_7.index t (1 : Fin 2)
    ∧ win0_7.index t (0 : Fin 2) < 16 ∧ win0_7.index t (1 : Fin 2) < 8 :=
  (by decide +kernel : ∀ t : Fin grid0.N, _)

/-- Every block `(I, J)` of the results is some point's. -/
theorem idx_onto : ∀ (I : Fin 16) (J : Fin 8), ∃ t : Fin cfg0.N, win0_7.index t = ![I.val, J.val] :=
  (by decide +kernel : ∀ (I : Fin 16) (J : Fin 8), ∃ t : Fin grid0.N, win0_7.index t = ![I.val, J.val])

/-! ## A staged block's entry is an entry of its array -/

section Blocks
variable (c : Dev nD) (t : Fin cfg0.N)

/-- Row `p` of the staged `x` block is row `512·I + p` of `x`. -/
theorem xblk_entry (p : Fin 512) (k : Fin 2048) (b : Fin 8192) (hb : b.val = win0_7.index t (0 : Fin 2) * 512 + p.val) :
    (iblk m c 0 t : Vec Ideal S512x2048 .bf16) (ix2 p k) = argX m c (ix2 b k) := by
  obtain ⟨e0, e1, -⟩ := idx_facts t
  unfold iblk
  rw [View.read_apply]
  show (V m c main_v0 : S8192x2048.Idx → EReal) _ = _
  rw [V_x]
  refine congrArg (argX m c) (funext fun a => Fin.ext ?_)
  match a with
  | ⟨0, _⟩ => show win0_0.index t (0 : Fin 2) * 512 + 1 * p.val = b.val; omega
  | ⟨1, _⟩ => show win0_0.index t (1 : Fin 2) * 2048 + 1 * k.val = k.val; omega

/-- Row `p` of the staged `h_prev` block is row `512·I + p` of `h_prev`. -/
theorem hblk_entry (p : Fin 512) (k : Fin 2048) (b : Fin 8192) (hb : b.val = win0_7.index t (0 : Fin 2) * 512 + p.val) :
    (iblk m c 1 t : Vec Ideal S512x2048 .bf16) (ix2 p k) = argH m c (ix2 b k) := by
  obtain ⟨-, -, e0, e1, -⟩ := idx_facts t
  unfold iblk
  rw [View.read_apply]
  show (V m c main_v1 : S8192x2048.Idx → EReal) _ = _
  rw [V_h]
  refine congrArg (argH m c) (funext fun a => Fin.ext ?_)
  match a with
  | ⟨0, _⟩ => show win0_1.index t (0 : Fin 2) * 512 + 1 * p.val = b.val; omega
  | ⟨1, _⟩ => show win0_1.index t (1 : Fin 2) * 2048 + 1 * k.val = k.val; omega

/-- Entry `(p, q)` of the staged `c_prev` block is entry `(512·I + p, 256·J + q)` of `c_prev`. -/
theorem cblk_entry (p : Fin 512) (q : Fin 256) (b : Fin 8192) (h : Fin 2048)
    (hb : b.val = win0_7.index t (0 : Fin 2) * 512 + p.val) (hh : h.val = win0_7.index t (1 : Fin 2) * 256 + q.val) :
    (iblk m c 2 t : Vec Ideal S512x256 .f32) (ix2 p q) = argC m c (ix2 b h) := by
  obtain ⟨-, -, -, -, e0, e1, -⟩ := idx_facts t
  unfold iblk
  rw [View.read_apply]
  show (V m c main_arg1 : S8192x2048.Idx → EReal) _ = _
  rw [V_main_arg1]
  refine congrArg (argC m c) (funext fun a => Fin.ext ?_)
  match a with
  | ⟨0, _⟩ => show win0_2.index t (0 : Fin 2) * 512 + 1 * p.val = b.val; omega
  | ⟨1, _⟩ => show win0_2.index t (1 : Fin 2) * 256 + 1 * q.val = h.val; omega

/-- Row `q` of gate `g` in the staged `W_x` block is row `256·J + q` of gate `g` in `W_x`. -/
theorem wxblk_entry (g : Fin 4) (q : Fin 256) (k : Fin 2048) (h : Fin 2048) (hh : h.val = win0_7.index t (1 : Fin 2) * 256 + q.val) :
    (iblk m c 3 t : Vec Ideal S4x256x2048 .bf16) (ix3 g q k) = argWx m c (ix3 g h k) := by
  obtain ⟨-, -, -, -, -, -, e0, e1, e2, -⟩ := idx_facts t
  unfold iblk
  rw [View.read_apply]
  show (V m c main_v2 : S4x2048x2048.Idx → EReal) _ = _
  rw [V_wx]
  refine congrArg (argWx m c) (funext fun a => Fin.ext ?_)
  match a with
  | ⟨0, _⟩ => show win0_3.index t (0 : Fin 3) * 4 + 1 * g.val = g.val; omega
  | ⟨1, _⟩ => show win0_3.index t (1 : Fin 3) * 256 + 1 * q.val = h.val; omega
  | ⟨2, _⟩ => show win0_3.index t (2 : Fin 3) * 2048 + 1 * k.val = k.val; omega

/-- Likewise of `W_h`. -/
theorem whblk_entry (g : Fin 4) (q : Fin 256) (k : Fin 2048) (h : Fin 2048) (hh : h.val = win0_7.index t (1 : Fin 2) * 256 + q.val) :
    (iblk m c 4 t : Vec Ideal S4x256x2048 .bf16) (ix3 g q k) = argWh m c (ix3 g h k) := by
  obtain ⟨-, -, -, -, -, -, -, -, -, e0, e1, e2, -⟩ := idx_facts t
  unfold iblk
  rw [View.read_apply]
  show (V m c main_v3 : S4x2048x2048.Idx → EReal) _ = _
  rw [V_wh]
  refine congrArg (argWh m c) (funext fun a => Fin.ext ?_)
  match a with
  | ⟨0, _⟩ => show win0_4.index t (0 : Fin 3) * 4 + 1 * g.val = g.val; omega
  | ⟨1, _⟩ => show win0_4.index t (1 : Fin 3) * 256 + 1 * q.val = h.val; omega
  | ⟨2, _⟩ => show win0_4.index t (2 : Fin 3) * 2048 + 1 * k.val = k.val; omega

/-- Entry `q` of gate `g` in the staged `b_x` block is entry `256·J + q` of gate `g` in `b_x`. -/
theorem bxblk_entry (g : Fin 4) (q : Fin 256) (h : Fin 2048) (hh : h.val = win0_7.index t (1 : Fin 2) * 256 + q.val) :
    (iblk m c 5 t : Vec Ideal S4x256 .f32) (ix2 g q) = argBx m c (ix2 g h) := by
  obtain ⟨-, -, -, -, -, -, -, -, -, -, -, -, e0, e1, -⟩ := idx_facts t
  unfold iblk
  rw [View.read_apply]
  show (V m c main_arg5 : S4x2048.Idx → EReal) _ = _
  rw [V_main_arg5]
  refine congrArg (argBx m c) (funext fun a => Fin.ext ?_)
  match a with
  | ⟨0, _⟩ => show win0_5.index t (0 : Fin 2) * 4 + 1 * g.val = g.val; omega
  | ⟨1, _⟩ => show win0_5.index t (1 : Fin 2) * 256 + 1 * q.val = h.val; omega

/-- Likewise of `b_h`. -/
theorem bhblk_entry (g : Fin 4) (q : Fin 256) (h : Fin 2048) (hh : h.val = win0_7.index t (1 : Fin 2) * 256 + q.val) :
    (iblk m c 6 t : Vec Ideal S4x256 .f32) (ix2 g q) = argBh m c (ix2 g h) := by
  obtain ⟨-, -, -, -, -, -, -, -, -, -, -, -, -, -, e0, e1, -⟩ := idx_facts t
  unfold iblk
  rw [View.read_apply]
  show (V m c main_arg6 : S4x2048.Idx → EReal) _ = _
  rw [V_main_arg6]
  refine congrArg (argBh m c) (funext fun a => Fin.ext ?_)
  match a with
  | ⟨0, _⟩ => show win0_6.index t (0 : Fin 2) * 4 + 1 * g.val = g.val; omega
  | ⟨1, _⟩ => show win0_6.index t (1 : Fin 2) * 256 + 1 * q.val = h.val; omega

/-- So gate `g`'s pre-activation over the staged blocks at `(p, q)` is the arguments' at `(512·I + p, 256·J + q)`. -/
theorem gate_blk_eq (g : Fin 4) (p : Fin 512) (q : Fin 256) (b : Fin 8192) (h : Fin 2048)
    (hb : b.val = win0_7.index t (0 : Fin 2) * 512 + p.val) (hh : h.val = win0_7.index t (1 : Fin 2) * 256 + q.val) :
    gateBlk (iblk m c 0 t) (iblk m c 1 t) (iblk m c 3 t) (iblk m c 4 t) (iblk m c 5 t) (iblk m c 6 t) g p q
      = pre (argX m c) (argH m c) (argWx m c) (argWh m c) (argBx m c) (argBh m c) g b h := by
  unfold gateBlk pre
  exact congrArg₂ (· + ·) (congrArg₂ (· + ·) (congrArg₂ (· + ·)
    (Finset.sum_congr rfl fun k _ => congrArg₂ (· * ·) (xblk_entry m c t p k b hb) (wxblk_entry m c t g q k h hh))
    (Finset.sum_congr rfl fun k _ => congrArg₂ (· * ·) (hblk_entry m c t p k b hb) (whblk_entry m c t g q k h hh)))
    (bxblk_entry m c t g q h hh)) (bhblk_entry m c t g q h hh)

/-- The cell block the body stores at point `t`, at `(p, q)`, is the next cell state at `(512·I + p, 256·J + q)`. -/
theorem cell_at (p : Fin 512) (q : Fin 256) (b : Fin 8192) (h : Fin 2048)
    (hb : b.val = win0_7.index t (0 : Fin 2) * 512 + p.val) (hh : h.val = win0_7.index t (1 : Fin 2) * 256 + q.val) :
    out0_7 (iblk m c 0 t) (iblk m c 1 t) (iblk m c 2 t) (iblk m c 3 t) (iblk m c 4 t) (iblk m c 5 t) (iblk m c 6 t) (ix2 p q)
      = cellAt (argX m c) (argC m c) (argH m c) (argWx m c) (argWh m c) (argBx m c) (argBh m c) b h := by
  refine (cellBlk_entry (iblk m c 0 t) (iblk m c 1 t) (iblk m c 2 t) (iblk m c 3 t) (iblk m c 4 t) (iblk m c 5 t) (iblk m c 6 t) p q).trans ?_
  unfold cellAt
  rw [gate_blk_eq m c t 0 p q b h hb hh, gate_blk_eq m c t 1 p q b h hb hh, gate_blk_eq m c t 2 p q b h hb hh]
  exact congrArg₂ (· + ·) (congrArg (_ * ·) (cblk_entry m c t p q b h hb hh)) rfl

/-- The hidden block the body stores at point `t`, at `(p, q)`, is the next hidden state there. -/
theorem hidden_at (p : Fin 512) (q : Fin 256) (b : Fin 8192) (h : Fin 2048)
    (hb : b.val = win0_7.index t (0 : Fin 2) * 512 + p.val) (hh : h.val = win0_7.index t (1 : Fin 2) * 256 + q.val) :
    out0_8 (iblk m c 0 t) (iblk m c 1 t) (iblk m c 2 t) (iblk m c 3 t) (iblk m c 4 t) (iblk m c 5 t) (iblk m c 6 t) (ix2 p q)
      = hiddenAt (argX m c) (argC m c) (argH m c) (argWx m c) (argWh m c) (argBx m c) (argBh m c) b h := by
  refine (hiddenBlk_entry (iblk m c 0 t) (iblk m c 1 t) (iblk m c 2 t) (iblk m c 3 t) (iblk m c 4 t) (iblk m c 5 t) (iblk m c 6 t) p q).trans ?_
  unfold hiddenAt
  rw [gate_blk_eq m c t 3 p q b h hb hh, cell_at m c t p q b h hb hh]

end Blocks

/-! ## What a point writes back, the cover, and the arrays after the run -/

/-- WHAT POINT `t` WRITES BACK to the first result is block `t` of the next cell state. -/
theorem flushed7_eq (c : Dev nD) (t : Fin cfg0.N) :
    (dats m 0 c).flushed 7 t = ((cfg0.win 7).blk t).view.read (Elt Ideal) (cellArr m c) := by
  rw [Value.flushed7]
  have key : ∀ j : S512x256.Idx,
      out0_7 (iblk m c 0 t) (iblk m c 1 t) (iblk m c 2 t) (iblk m c 3 t) (iblk m c 4 t) (iblk m c 5 t) (iblk m c 6 t) j
        = cellArr m c (((cfg0.win 7).blk t).view.emb j) := fun j => by
    obtain ⟨p, q, rfl⟩ : ∃ (p : Fin 512) (q : Fin 256), j = ix2 p q := ⟨j 0, j 1, eq_ix2 j⟩
    exact cell_at m c t p q _ _
      (by show win0_7.index t (0 : Fin 2) * 512 + 1 * p.val = win0_7.index t (0 : Fin 2) * 512 + p.val; omega)
      (by show win0_7.index t (1 : Fin 2) * 256 + 1 * q.val = win0_7.index t (1 : Fin 2) * 256 + q.val; omega)
  exact funext key

/-- WHAT POINT `t` WRITES BACK to the second result is block `t` of the next hidden state. -/
theorem flushed8_eq (c : Dev nD) (t : Fin cfg0.N) :
    (dats m 0 c).flushed 8 t = ((cfg0.win 8).blk t).view.read (Elt Ideal) (hiddenArr m c) := by
  rw [Value.flushed8]
  obtain ⟨-, -, -, -, -, -, -, -, -, -, -, -, -, -, -, -, e0, e1, -⟩ := idx_facts t
  have key : ∀ j : S512x256.Idx,
      out0_8 (iblk m c 0 t) (iblk m c 1 t) (iblk m c 2 t) (iblk m c 3 t) (iblk m c 4 t) (iblk m c 5 t) (iblk m c 6 t) j
        = hiddenArr m c (((cfg0.win 8).blk t).view.emb j) := fun j => by
    obtain ⟨p, q, rfl⟩ : ∃ (p : Fin 512) (q : Fin 256), j = ix2 p q := ⟨j 0, j 1, eq_ix2 j⟩
    exact hidden_at m c t p q _ _
      (by show win0_8.index t (0 : Fin 2) * 512 + 1 * p.val = win0_7.index t (0 : Fin 2) * 512 + p.val; omega)
      (by show win0_8.index t (1 : Fin 2) * 256 + 1 * q.val = win0_7.index t (1 : Fin 2) * 256 + q.val; omega)
  exact funext key

/-- An index of the first result is in point `t`'s block iff each coordinate is in the block's range on its axis. -/
theorem mem_blk7 (t : Fin cfg0.N) (i : S8192x2048.Idx) :
    i ∈ ((cfg0.win 7).blk t).view.set ↔ ∀ a : Fin 2, win0_7.index t a * S512x256.size a ≤ (i a).val ∧ (i a).val < win0_7.index t a * S512x256.size a + S512x256.size a := by
  show i ∈ ((View.whole main_v4_0).slice (win0_7.rect t)).set ↔ _
  rw [View.set_slice_whole, Rect.mem_set_unit]
  exact Iff.rfl

/-- The same for the second result. -/
theorem mem_blk8 (t : Fin cfg0.N) (i : S8192x2048.Idx) :
    i ∈ ((cfg0.win 8).blk t).view.set ↔ ∀ a : Fin 2, win0_8.index t a * S512x256.size a ≤ (i a).val ∧ (i a).val < win0_8.index t a * S512x256.size a + S512x256.size a := by
  show i ∈ ((View.whole main_v4_1).slice (win0_8.rect t)).set ↔ _
  rw [View.set_slice_whole, Rect.mem_set_unit]
  exact Iff.rfl

/-- The 128 blocks cover the first result: entry `(r, s)` is in block `(r / 512, s / 256)`. -/
theorem cover7 (i : S8192x2048.Idx) : ∃ t : Fin cfg0.N, (cfg0.win 7).flush t = true ∧ i ∈ ((cfg0.win 7).blk t).view.set := by
  have hi0 : (i 0).val < 8192 := (i 0).isLt
  have hi1 : (i 1).val < 2048 := (i 1).isLt
  obtain ⟨t, ht⟩ := idx_onto ⟨(i 0).val / 512, by omega⟩ ⟨(i 1).val / 256, by omega⟩
  have q0 : win0_7.index t (0 : Fin 2) = (i 0).val / 512 := congrFun ht 0
  have q1 : win0_7.index t (1 : Fin 2) = (i 1).val / 256 := congrFun ht 1
  refine ⟨t, flush0_7 t, ?_⟩
  rw [mem_blk7]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 256 ≤ (i 1).val ∧ (i 1).val < win0_7.index t (1 : Fin 2) * 256 + 256; omega

/-- And the second. -/
theorem cover8 (i : S8192x2048.Idx) : ∃ t : Fin cfg0.N, (cfg0.win 8).flush t = true ∧ i ∈ ((cfg0.win 8).blk t).view.set := by
  have hi0 : (i 0).val < 8192 := (i 0).isLt
  have hi1 : (i 1).val < 2048 := (i 1).isLt
  obtain ⟨t, ht⟩ := idx_onto ⟨(i 0).val / 512, by omega⟩ ⟨(i 1).val / 256, by omega⟩
  obtain ⟨-, -, -, -, -, -, -, -, -, -, -, -, -, -, -, -, e0, e1, -⟩ := idx_facts t
  have q0 : win0_7.index t (0 : Fin 2) = (i 0).val / 512 := congrFun ht 0
  have q1 : win0_7.index t (1 : Fin 2) = (i 1).val / 256 := congrFun ht 1
  refine ⟨t, flush0_8 t, ?_⟩
  rw [mem_blk8]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 256 ≤ (i 1).val ∧ (i 1).val < win0_8.index t (1 : Fin 2) * 256 + 256; omega

/-- THE FIRST RESULT after the run is the next cell state. -/
theorem final7 (c : Dev nD) : (dats m 0 c).arrAt 7 cfg0.N = cellArr m c :=
  (dats m 0 c).arrAt_eq_of_cover 7 (cellArr m c) (fun t _ => flushed7_eq m c t) cover7

/-- THE SECOND RESULT after the run is the next hidden state. -/
theorem final8 (c : Dev nD) : (dats m 0 c).arrAt 8 cfg0.N = hiddenArr m c :=
  (dats m 0 c).arrAt_eq_of_cover 8 (hiddenArr m c) (fun t _ => flushed8_eq m c t) cover8

/-- The run, read: both results at the LSTM cell of the arguments, the arguments unchanged. -/
theorem run : θ_run defs (onTc (τ := τ) (main (F := Ideal))) ⟨m, fun _ => 0, ρ⟩ fun r => ∀ c : Dev nD,
      r.2.mem ((c : Thread nD τ).loc main_v4_0) = cellArr m c
      ∧ r.2.mem ((c : Thread nD τ).loc main_v4_1) = hiddenArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c), (h c).2.2⟩)
    (Value.run_blocks m ρ)

end Cert.KernelIdeal.Hand

end
-- ==== Proof.RefIsSpec.lean ====
/-
  The reference's two results, read index by index, are the LSTM cell of `LstmSpec`.

  The reference computes all four gates at once: two batched products `W·xᵀ` and `W·hᵀ` laid out gate, column, row,
  transposed to gate, row, column, each with its bias added, then added together; gate `g` is then sliced out. Read at
  an index that is the pre-activation `pre g b h` with the four terms grouped the reference's way (`pre_regroup`).
  The logistic function appears spelt out (`logistic_spelt`).
-/
import proofs.«180606_j21354577396155_1_alg».proof.Proof.Gen.ReferenceIdeal.Read
import proofs.«180606_j21354577396155_1_alg».proof.Proof.LstmSpec

noncomputable section

open scoped BigOperators
open Idealize.ShloMosaic Idealize.ShloMosaic.TcCoe Idealize.ShloMosaic.ValueIdx

namespace Cert.ReferenceIdeal.RefValue

open Cert.ReferenceIdeal Cert.ReferenceIdeal.Gen Cert.ReferenceIdeal.Read Cert.Lstm

variable (x0 x1 x2 : (⟨S8192x2048, .f32⟩ : BufTy).Contents (Elt Ideal))
  (x3 x4 : (⟨S4x2048x2048, .f32⟩ : BufTy).Contents (Elt Ideal)) (x5 x6 : (⟨S4x2048, .f32⟩ : BufTy).Contents (Elt Ideal))

/-- All four gates' pre-activations, as the reference lays them out: entry `(g, b, h)`. -/
theorem gates_apply (g : Fin 4) (b : Fin 8192) (h : Fin 2048) :
    val_main_v10 (F := Ideal) x0 x2 x3 x4 x5 x6 (ix3 g b h) = pre x0 x2 x3 x4 x5 x6 g b h := by
  rw [val_main_v10_apply, val_main_v4_apply, val_main_v9_apply, val_main_v1_apply, val_main_v3_apply,
    val_main_v2_apply, val_main_v6_apply, val_main_v8_apply, val_main_v7_apply, val_main_v0_apply, val_main_v5_apply,
    ← pre_regroup]
  have el0 : ∀ k, lidx_main_v0 (idx_main_v1 (ix3 g b h)) k = ix3 g h k := fun k =>
    funext fun a => by match a with | ⟨0, _⟩ => rfl | ⟨1, _⟩ => rfl | ⟨2, _⟩ => rfl
  have er0 : ∀ k, ridx_main_v0 (idx_main_v1 (ix3 g b h)) k = ix2 b k := fun k =>
    funext fun a => by match a with | ⟨0, _⟩ => rfl | ⟨1, _⟩ => rfl
  have el5 : ∀ k, lidx_main_v5 (idx_main_v6 (ix3 g b h)) k = ix3 g h k := fun k =>
    funext fun a => by match a with | ⟨0, _⟩ => rfl | ⟨1, _⟩ => rfl | ⟨2, _⟩ => rfl
  have er5 : ∀ k, ridx_main_v5 (idx_main_v6 (ix3 g b h)) k = ix2 b k := fun k =>
    funext fun a => by match a with | ⟨0, _⟩ => rfl | ⟨1, _⟩ => rfl
  have eb5 : idx_main_v2 (idx_main_v3 (ix3 g b h)) = ix2 g h :=
    funext fun a => by match a with | ⟨0, _⟩ => rfl | ⟨1, _⟩ => rfl
  have eb6 : idx_main_v7 (idx_main_v8 (ix3 g b h)) = ix2 g h :=
    funext fun a => by match a with | ⟨0, _⟩ => rfl | ⟨1, _⟩ => rfl
  simp only [el0, er0, el5, er5, eb5, eb6]
  rfl

/-- Slicing gate 0 out of the stacked gates and dropping the unit axis reads entry `(0, b, h)`. -/
theorem slice0_idx (b : Fin 8192) (h : Fin 2048) : idx_main_v11 (idx_main_v12 (ix2 b h)) = ix3 (0 : Fin 4) b h := by
  have hb : b.val < 8192 := b.isLt
  have hh : h.val < 2048 := h.isLt
  funext a; apply Fin.ext
  match a with
  | ⟨0, _⟩ => rfl
  | ⟨1, _⟩ => show (b.val * 2048 + h.val) / 2048 % 8192 = b.val; omega
  | ⟨2, _⟩ => show (b.val * 2048 + h.val) % 2048 = h.val; omega

/-- Gate 1 likewise reads entry `(1, b, h)`. -/
theorem slice1_idx (b : Fin 8192) (h : Fin 2048) : idx_main_v19 (idx_main_v20 (ix2 b h)) = ix3 (1 : Fin 4) b h := by
  have hb : b.val < 8192 := b.isLt
  have hh : h.val < 2048 := h.isLt
  funext a; apply Fin.ext
  match a with
  | ⟨0, _⟩ => rfl
  | ⟨1, _⟩ => show (b.val * 2048 + h.val) / 2048 % 8192 = b.val; omega
  | ⟨2, _⟩ => show (b.val * 2048 + h.val) % 2048 = h.val; omega

/-- Gate 2 reads entry `(2, b, h)`. -/
theorem slice2_idx (b : Fin 8192) (h : Fin 2048) : idx_main_v27 (idx_main_v28 (ix2 b h)) = ix3 (2 : Fin 4) b h := by
  have hb : b.val < 8192 := b.isLt
  have hh : h.val < 2048 := h.isLt
  funext a; apply Fin.ext
  match a with
  | ⟨0, _⟩ => rfl
  | ⟨1, _⟩ => show (b.val * 2048 + h.val) / 2048 % 8192 = b.val; omega
  | ⟨2, _⟩ => show (b.val * 2048 + h.val) % 2048 = h.val; omega

/-- Gate 3 reads entry `(3, b, h)`. -/
theorem slice3_idx (b : Fin 8192) (h : Fin 2048) : idx_main_v30 (idx_main_v31 (ix2 b h)) = ix3 (3 : Fin 4) b h := by
  have hb : b.val < 8192 := b.isLt
  have hh : h.val < 2048 := h.isLt
  funext a; apply Fin.ext
  match a with
  | ⟨0, _⟩ => rfl
  | ⟨1, _⟩ => show (b.val * 2048 + h.val) / 2048 % 8192 = b.val; omega
  | ⟨2, _⟩ => show (b.val * 2048 + h.val) % 2048 = h.val; omega

/-- The reference's first result is the next cell state. -/
theorem cell_eq : val_main_v40 (F := Ideal) x0 x1 x2 x3 x4 x5 x6 = cellNext x0 x1 x2 x3 x4 x5 x6 := by
  funext i
  obtain ⟨b, h, rfl⟩ : ∃ (b : Fin 8192) (h : Fin 2048), i = ix2 b h := ⟨i 0, i 1, eq_ix2 i⟩
  simp only [val_main_v40_apply, val_main_v38_apply, val_main_v39_apply, val_main_v18_apply, val_main_v26_apply,
    val_main_v29_apply, val_main_v28_apply, val_main_v27_apply, val_main_v25_apply, val_main_v24_apply,
    val_main_v23_apply, val_main_v22_apply, val_main_v21_apply, val_main_v20_apply, val_main_v19_apply,
    val_main_v17_apply, val_main_v16_apply, val_main_v15_apply, val_main_v14_apply, val_main_v13_apply,
    val_main_v12_apply, val_main_v11_apply, val_main_cst_apply, val_main_cst_0_apply, val_main_cst_1_apply,
    val_main_cst_2_apply, slice0_idx, slice1_idx, slice2_idx, gates_apply,
    Ideal.hostDivf_def, Ideal.addf_def, Ideal.mulf_def, Ideal.hostUnary_exp_def, Ideal.hostUnary_tanh_def,
    Ideal.hostNegf_def, Ideal.negf_def, Ideal.ofBits_def, logistic_spelt]
  rfl

/-- The reference's second result is the next hidden state. -/
theorem hidden_eq : val_main_v42 (F := Ideal) x0 x1 x2 x3 x4 x5 x6 = hiddenNext x0 x1 x2 x3 x4 x5 x6 := by
  funext i
  obtain ⟨b, h, rfl⟩ : ∃ (b : Fin 8192) (h : Fin 2048), i = ix2 b h := ⟨i 0, i 1, eq_ix2 i⟩
  rw [val_main_v42_apply, val_main_v41_apply, cell_eq]
  simp only [val_main_v37_apply, val_main_v36_apply, val_main_v35_apply, val_main_v34_apply, val_main_v33_apply,
    val_main_v32_apply, val_main_v31_apply, val_main_v30_apply, val_main_cst_3_apply, val_main_cst_4_apply,
    slice3_idx, gates_apply,
    Ideal.hostDivf_def, Ideal.addf_def, Ideal.mulf_def, Ideal.hostUnary_exp_def, Ideal.hostUnary_tanh_def,
    Ideal.hostNegf_def, Ideal.negf_def, Ideal.ofBits_def, logistic_spelt]
  rfl

end Cert.ReferenceIdeal.RefValue

end
-- ==== Proof.lean ====
/-
  An LSTM cell: a Pallas kernel tiled 16 × 8 over the batch rows and the hidden columns against the jnp reference.

  Both programs compute, for every batch row `b` and hidden column `h`, the four gate pre-activations
      pre g = Σ_k x[b,k]·W_x[g,h,k] + Σ_k h_prev[b,k]·W_h[g,h,k] + b_x[g,h] + b_h[g,h],
  the next cell state σ(pre 0)·c_prev + σ(pre 1)·tanh(pre 2) and the next hidden state σ(pre 3)·tanh of it
  (`LstmSpec`). The kernel adds the two products first and then the two biases, multiplies each activation by its
  weight, and narrows its matrix operands to bf16, which on the extended reals is the identity; the reference adds each
  bias to its own product, multiplies each weight by its activation, and spells the logistic function out. Those are
  the same extended real by commutativity and associativity alone, so the precondition is never opened.

  The frames of the two kernel programs are the generated ones; the reference's frame is its generated run with the
  results dropped; no rewrite was made by the ideal pass, so the preservation claim is trivial; the algebraic claim
  sets the kernel's run (`KernelIsSpec`) beside the reference's (`RefIsSpec`), both at the one function of `LstmSpec`.
-/
import proofs.«180606_j21354577396155_1_alg».proof.Defs
import proofs.«180606_j21354577396155_1_alg».proof.Proof.Gen.Kernel
import proofs.«180606_j21354577396155_1_alg».proof.Proof.Gen.Kernel.Skeleton
import proofs.«180606_j21354577396155_1_alg».proof.Proof.Gen.Kernel.Launch
import proofs.«180606_j21354577396155_1_alg».proof.Proof.Gen.Kernel.Points
import proofs.«180606_j21354577396155_1_alg».proof.Proof.Gen.Kernel.Frame
import proofs.«180606_j21354577396155_1_alg».proof.Proof.Gen.KernelIdeal
import proofs.«180606_j21354577396155_1_alg».proof.Proof.Gen.KernelIdeal.Skeleton
import proofs.«180606_j21354577396155_1_alg».proof.Proof.Gen.KernelIdeal.Launch
import proofs.«180606_j21354577396155_1_alg».proof.Proof.Gen.KernelIdeal.Points
import proofs.«180606_j21354577396155_1_alg».proof.Proof.Gen.KernelIdeal.Frame
import proofs.«180606_j21354577396155_1_alg».proof.Proof.Gen.ReferenceIdeal
import proofs.«180606_j21354577396155_1_alg».proof.Proof.Gen.Pre_finite_inputs
import proofs.«180606_j21354577396155_1_alg».proof.Proof.Gen.KernelIdeal.Value
import proofs.«180606_j21354577396155_1_alg».proof.Proof.Gen.ReferenceIdeal.Run
import proofs.«180606_j21354577396155_1_alg».proof.Proof.Gen.ReferenceIdeal.Read
import proofs.«180606_j21354577396155_1_alg».proof.Proof.KernelIsSpec
import proofs.«180606_j21354577396155_1_alg».proof.Proof.RefIsSpec
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end with the next cell state and the next hidden state of arguments that agree. -/
theorem algebraic : Cert.algebraic_KernelIdeal_ReferenceIdeal := by
  intro m ρ m' ρ' _ hagree
  refine ⟨fun c => Cert.KernelIdeal.Hand.cellArr m c, fun c => Cert.KernelIdeal.Hand.hiddenArr m c,
    Cert.KernelIdeal.Hand.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v40_eq, Cert.ReferenceIdeal.RefValue.cell_eq,
      (hagree c).1, (hagree c).2.1, (hagree c).2.2.1, (hagree c).2.2.2.1, (hagree c).2.2.2.2.1, (hagree c).2.2.2.2.2.1,
      (hagree c).2.2.2.2.2.2]
  · rw [Cert.ReferenceIdeal.Read.val_main_v42_eq, Cert.ReferenceIdeal.RefValue.hidden_eq,
      (hagree c).1, (hagree c).2.1, (hagree c).2.2.1, (hagree c).2.2.2.1, (hagree c).2.2.2.2.1, (hagree c).2.2.2.2.2.1,
      (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
